-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x512 : Shape := ⟨3, ![32, 1024, 512]⟩
abbrev S32x512x512 : Shape := ⟨3, ![32, 512, 512]⟩
abbrev S32 : Shape := ⟨1, ![32]⟩
abbrev S_ : Shape := ⟨0, ![]⟩

class Facts : Prop where
  bcast_S_S32x1024x512 : S_.BroadcastsInDim S32x1024x512 (![] : Fin 0 → Fin S32x1024x512.rank)
  reducesTo_S32x1024x512_S_d0_1_2 : S32x1024x512.ReducesTo [0, 1, 2] S_
  h_S_ : 0 < S_.numel
  bcast_S_S32x512x512 : S_.BroadcastsInDim S32x512x512 (![] : Fin 0 → Fin S32x512x512.rank)
  reducesTo_S32x512x512_S_d0_1_2 : S32x512x512.ReducesTo [0, 1, 2] S_

variable [Facts]

def fn {F : FTy → Type} [FloatOps F] (main_arg0 : FVec F S32x1024x512 .f32) (main_arg1 : FVec F S32x512x512 .f32) (main_arg2 : IVec S32 32) : IVec S_ 1 :=
  let main_v0 : FVec F S32x1024x512 .f32 := Host.absf main_arg0
  let main_cst : FVec F S_ .f32 := constant S_ .f32 0x7F800000#32
  let main_v1 : FVec F S32x1024x512 .f32 := broadcastInDim S32x1024x512 ![] bcast_S_S32x1024x512 main_cst
  let main_v2 : IVec S32x1024x512 1 := cmpf .olt main_v0 main_v1
  let main_c : IVec S_ 1 := constantI S_ 1 1#1
  let main_v3 : IVec S_ 1 := (fun x v => Host.reduce IntOp.andi x v reducesTo_S32x1024x512_S_d0_1_2 h_S_) main_v2 main_c
  let main_v4 : FVec F S32x512x512 .f32 := Host.absf main_arg1
  let main_cst_0 : FVec F S_ .f32 := constant S_ .f32 0x7F800000#32
  let main_v5 : FVec F S32x512x512 .f32 := broadcastInDim S32x512x512 ![] bcast_S_S32x512x512 main_cst_0
  let main_v6 : IVec S32x512x512 1 := cmpf .olt main_v4 main_v5
  let main_c_1 : IVec S_ 1 := constantI S_ 1 1#1
  let main_v7 : IVec S_ 1 := (fun x v => Host.reduce IntOp.andi x v reducesTo_S32x512x512_S_d0_1_2 h_S_) main_v6 main_c_1
  let main_v8 : IVec S_ 1 := andi main_v3 main_v7
  main_v8
-- ==== Kernel.lean ====
abbrev S32x1024x512 : Shape := ⟨3, ![32, 1024, 512]⟩
abbrev S32x512x512 : Shape := ⟨3, ![32, 512, 512]⟩
abbrev S32 : Shape := ⟨1, ![32]⟩
abbrev S1x1024x512 : Shape := ⟨3, ![1, 1024, 512]⟩
abbrev S1x512x512 : Shape := ⟨3, ![1, 512, 512]⟩
abbrev S1 : Shape := ⟨1, ![1]⟩
abbrev S1024x512 : Shape := ⟨2, ![1024, 512]⟩
abbrev S512x512 : Shape := ⟨2, ![512, 512]⟩

abbrev nBuf : Space → Nat
  | .hbm => 3
  | .vmem => 6
  | .smem => 1
  | _ => 0

abbrev bufTy : (tb : Table) → Fin (tcTables nBuf tb) → BufTy
  | .hbm, ⟨0, _⟩ => ⟨S32x1024x512, .f32⟩
  | .hbm, ⟨1, _⟩ => ⟨S32x512x512, .f32⟩
  | .hbm, ⟨2, _⟩ => ⟨S32x1024x512, .f32⟩
  | .local _ .vmem, ⟨0, _⟩ => ⟨S1x1024x512, .f32⟩
  | .local _ .vmem, ⟨1, _⟩ => ⟨S1x1024x512, .f32⟩
  | .local _ .vmem, ⟨2, _⟩ => ⟨S1x512x512, .f32⟩
  | .local _ .vmem, ⟨3, _⟩ => ⟨S1x512x512, .f32⟩
  | .local _ .vmem, ⟨4, _⟩ => ⟨S1x1024x512, .f32⟩
  | .local _ .vmem, ⟨5, _⟩ => ⟨S1x1024x512, .f32⟩
  | .local _ .smem, ⟨0, _⟩ => ⟨S32, .i32⟩
  | _, _ => ⟨S32x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  numel1_S1 : S1.numel = 1
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  iota_S1024x512_d0_w32 : S1024x512.Iotas .tc 32 [0]
  shapeCasts_S1024x512_S1x1024x512 : S1024x512.ShapeCasts S1x1024x512
  dot_S1024x512_S512x512_S1024x512_1_1_0_0_n_n_wf : DotDims.WF S1024x512 S512x512 S1024x512 [1] [1] [0] [0] [] []
  hrank0 : 0 < grid0.rank
  k0_off1_inb : ∀ i : grid0.Coords, ∀ a, (k0_off1 i) a + S1.size a ≤ S32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S32x1024x512.size a
  hwx0_0 : ∀ i : grid0.Coords, EltTy.bits .f32 = 32 ∨ (Rect.block (s := S32x1024x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S32x512x512.size a
  hwx0_1 : ∀ i : grid0.Coords, EltTy.bits .f32 = 32 ∨ (Rect.block (s := S32x512x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x512.size a ≤ S32x1024x512.size a
  hwx0_2 : ∀ i : grid0.Coords, EltTy.bits .f32 = 32 ∨ (Rect.block (s := S32x1024x512) S1x1024x512.size (cc0_transform_2 i) (hinb0_2 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev spec0_0 : Pipeline.WinSpec sig grid0.rank :=
  Pipeline.WinSpec.ofSpec (Memref.whole main_arg0) S1x1024x512.size reads0_0 false false 2 stage0_0 sem0_0 nbuf0_0 hstage0_0

abbrev spec0_1 : Pipeline.WinSpec sig grid0.rank :=
  Pipeline.WinSpec.ofSpec (Memref.whole main_arg1) S1x512x512.size reads0_1 false false 2 stage0_1 sem0_1 nbuf0_1 hstage0_1

abbrev spec0_2 : Pipeline.WinSpec sig grid0.rank :=
  Pipeline.WinSpec.ofSpec (Memref.whole main_v0) S1x1024x512.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | ⟨_ + 3, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S32x1024x512 : Shape := ⟨3, ![32, 1024, 512]⟩
abbrev S32x512x512 : Shape := ⟨3, ![32, 512, 512]⟩
abbrev S32 : Shape := ⟨1, ![32]⟩
abbrev S1024 : Shape := ⟨1, ![1024]⟩
abbrev S1x1024 : Shape := ⟨2, ![1, 1024]⟩
abbrev S32x1 : Shape := ⟨2, ![32, 1]⟩
abbrev S32x1024 : Shape := ⟨2, ![32, 1024]⟩
abbrev S32x1024x1 : Shape := ⟨3, ![32, 1024, 1]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S32x1024x512, .f32⟩
  | .hbm, ⟨1, _⟩ => ⟨S32x512x512, .f32⟩
  | .hbm, ⟨2, _⟩ => ⟨S32, .i32⟩
  | .hbm, ⟨3, _⟩ => ⟨S32x1024x512, .f32⟩
  | .hbm, ⟨4, _⟩ => ⟨S1024, .i32⟩
  | .hbm, ⟨5, _⟩ => ⟨S1x1024, .i32⟩
  | .hbm, ⟨6, _⟩ => ⟨S32x1, .i32⟩
  | .hbm, ⟨7, _⟩ => ⟨S32x1024, .i32⟩
  | .hbm, ⟨8, _⟩ => ⟨S32x1024, .i32⟩
  | .hbm, ⟨9, _⟩ => ⟨S32x1024, .i1⟩
  | .hbm, ⟨10, _⟩ => ⟨S32x1024x1, .i1⟩
  | .hbm, ⟨11, _⟩ => ⟨S_, .f32⟩
  | .hbm, ⟨12, _⟩ => ⟨S32x1024x512, .i1⟩
  | .hbm, ⟨13, _⟩ => ⟨S32x1024x512, .f32⟩
  | .hbm, ⟨14, _⟩ => ⟨S32x1024x512, .f32⟩
  | _, _ => ⟨S32x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S32_S32x1_0 : S32.BroadcastsInDim S32x1 (![0] : Fin 1 → Fin S32x1.rank)
  bcast_S1x1024_S32x1024_0_1 : S1x1024.BroadcastsInDim S32x1024 (![0, 1] : Fin 2 → Fin S32x1024.rank)
  bcast_S32x1_S32x1024_0_1 : S32x1.BroadcastsInDim S32x1024 (![0, 1] : Fin 2 → Fin S32x1024.rank)
  bcast_S32x1024_S32x1024x1_0_1 : S32x1024.BroadcastsInDim S32x1024x1 (![0, 1] : Fin 2 → Fin S32x1024x1.rank)
  bcast_S32x1024x1_S32x1024x512_0_1_2 : S32x1024x1.BroadcastsInDim S32x1024x512 (![0, 1, 2] : Fin 3 → Fin S32x1024x512.rank)
  bcast_S_S32x1024x512 : S_.BroadcastsInDim S32x1024x512 (![] : Fin 0 → Fin S32x1024x512.rank)
  dot_S32x1024x512_S32x512x512_S32x1024x512_2_2_1_1_0_0_wf : DotDims.WF S32x1024x512 S32x512x512 S32x1024x512 [2] [2] [1] [1] [0] [0]

variable [Facts₀]

def dot_S32x1024x512_S32x512x512_S32x1024x512_2_2_1_1_0_0 : DotDims S32x1024x512 S32x512x512 S32x1024x512 where
  lhsContracting := [2]
  rhsContracting := [2]
  lhsNonContracting := [1]
  rhsNonContracting := [1]
  lhsBatch := [0]
  rhsBatch := [0]
  wf := dot_S32x1024x512_S32x512x512_S32x1024x512_2_2_1_1_0_0_wf

class Facts : Prop extends Facts₀ where

variable [Facts]
-- ==== Proof.KI.Block.lean ====
/-
  What one grid point of the idealized kernel leaves in the output's staging buffer.

  At expert `e` the body loads the expert's left block `a` (1024 × 512) and right block `b` (512 × 512), reads
  the expert's token count `w` from the prefetched table, and stores, at row `r` and column `n`,
      Σₖ a[r, k] · b[n, k]   if r < w (as signed words),   and zero otherwise.
  A change of float format is the identity on the extended reals, and the product unit's accumulator is the zero
  block, so the stored entry is exactly that sum. The one covering store is found by the generated run; here it
  is read back as the payload, and the payload is read at an index.
-/
import proofs.«406847_j68152541052992_1_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem Idealize.ShloMosaic.ValueIdx

namespace Cert.KernelIdeal.Block

open Cert.KernelIdeal Cert.KernelIdeal.Gen

/-! ## The stored block is the payload of the loads -/

section AnyValues
variable {F : FTy → Type} [FloatOps F]

theorem zero_offsets : (![0, 0, 0] : Fin 3 → Nat) = fun _ => 0 := funext fun a => by fin_cases a <;> rfl

/-- The token count the body reads at grid point `i`: the table's word at offset `i`. -/
def countWord (c : Dev nD) (i : grid0.Coords) (xt0 : TbBuf0 (F := F) c tbM0_0) : Elt F .i32 :=
  View.readAt (Elt F) tbM0_0.view (Rect.unit (s := S32) (k0_off1 i) S1.size (k0_off1_inb i)).toLoadRect xt0
    (Shape.Idx.first (show 0 < S1.numel by decide))

/-- The run's one piece covers the output block, so what it leaves there is the store's payload: the body's
    arithmetic applied to the count word and to the two input blocks as loaded whole. -/
theorem stored_eq (c : Dev nD) (i : grid0.Coords) (a2 : Memref sig .tc .vmem S1x1024x512 .f32) (h2 : a2.IsWhole)
    (a3 : Memref sig .tc .vmem S1x512x512 .f32) (h3 : a3.IsWhole) (a4 : Memref sig .tc .vmem S1x1024x512 .f32) (h4 : a4.IsWhole)
    (x0 : Vec F S1x1024x512 .f32) (x1 : Vec F S1x512x512 .f32) (xt0 : TbBuf0 (F := F) c tbM0_0) :
    out0_A_2 c i a2 h2 a3 h3 a4 h4 x0 x1 xt0 = k0_pay1 (countWord c i xt0) x0 x1 := by
  unfold out0_A_2
  rw [View.read_writes_eq_canon _ _ _ (cover0_A_2 c i a2 h2 a3 h3 a4 h4 x0 x1 xt0)]
  unfold kernelRun0_A
  dsimp only
  sl_unfold_words
  rw [View.canon_unit_zero zero_offsets]
  simp only [View.readAt_eq_ld, h2.read_unread, h3.read_unread, View.ld_unit_zero (S := S1x1024x512) zero_offsets,
    View.ld_unit_zero (S := S1x512x512) zero_offsets]
  rfl

end AnyValues

/-! ## The payload at an index, on the extended reals -/

/-- Left operand of the product at output (r, n) and contraction index q: row r. -/
theorem lhs_row (j : S1024x512.Idx) (q : dot_S1024x512_S512x512_S1024x512_1_1_0_0_n_n.contr.Idx) :
    (dot_S1024x512_S512x512_S1024x512_1_1_0_0_n_n.lhsIdx j q 0).val = (j 0).val := by
  unfold DotDims.lhsIdx
  rw [dif_neg (show ¬(0 : Fin S1024x512.rank) ∈ dot_S1024x512_S512x512_S1024x512_1_1_0_0_n_n.lhsBatch by decide), dif_pos (show (0 : Fin S1024x512.rank) ∈ dot_S1024x512_S512x512_S1024x512_1_1_0_0_n_n.lhsNonContracting by decide)]
  rfl
/-- … and column q. -/
theorem lhs_col (j : S1024x512.Idx) (q : dot_S1024x512_S512x512_S1024x512_1_1_0_0_n_n.contr.Idx) :
    (dot_S1024x512_S512x512_S1024x512_1_1_0_0_n_n.lhsIdx j q 1).val = (q ⟨0, by decide⟩).val :=
  dot_S1024x512_S512x512_S1024x512_1_1_0_0_n_n.lhsIdx_val_of_single rfl j q
/-- Right operand: row n (the output's column), -/
theorem rhs_row (j : S1024x512.Idx) (q : dot_S1024x512_S512x512_S1024x512_1_1_0_0_n_n.contr.Idx) :
    (dot_S1024x512_S512x512_S1024x512_1_1_0_0_n_n.rhsIdx j q 0).val = (j 1).val := by
  unfold DotDims.rhsIdx
  rw [dif_neg (show ¬(0 : Fin S512x512.rank) ∈ dot_S1024x512_S512x512_S1024x512_1_1_0_0_n_n.rhsBatch by decide), dif_pos (show (0 : Fin S512x512.rank) ∈ dot_S1024x512_S512x512_S1024x512_1_1_0_0_n_n.rhsNonContracting by decide)]
  rfl
/-- … and column q: both operands are contracted along their second axis. -/
theorem rhs_col (j : S1024x512.Idx) (q : dot_S1024x512_S512x512_S1024x512_1_1_0_0_n_n.contr.Idx) :
    (dot_S1024x512_S512x512_S1024x512_1_1_0_0_n_n.rhsIdx j q 1).val = (q ⟨0, by decide⟩).val :=
  dot_S1024x512_S512x512_S1024x512_1_1_0_0_n_n.rhsIdx_val_of_single rfl j q

/-- The product unit into a zero accumulator, entry (r, n): the sum over k of a[r, k] · b[n, k], the two operands
    being the loaded blocks with their unit axis dropped and their format changed (the identity here). -/
theorem product_entry (x0 : Vec Ideal S1x1024x512 .f32) (x1 : Vec Ideal S1x512x512 .f32) (r : Fin 1024) (n : Fin 512) :
    matmul (F := Ideal) dot_S1024x512_S512x512_S1024x512_1_1_0_0_n_n none
        (truncf .bf16 (shapeCast S1024x512 x0 shapeCasts_S1x1024x512_S1024x512) bitsLt_bf16_f32)
        (truncf .bf16 (shapeCast S512x512 x1 shapeCasts_S1x512x512_S512x512) bitsLt_bf16_f32)
        (constant S1024x512 .f32 0x00000000#32) (ix2 r n)
      = ∑ k : Fin 512, x0 (ix3 0 r k) * x1 (ix3 0 n k) := by
  simp only [matmul]
  rw [Ideal.matmul_constant_zero_apply, ← Equiv.sum_comp (contrEquiv1 dot_S1024x512_S512x512_S1024x512_1_1_0_0_n_n 512 rfl rfl).symm]
  refine Finset.sum_congr rfl fun k _ => ?_
  have hk := contrEquiv1_symm_val dot_S1024x512_S512x512_S1024x512_1_1_0_0_n_n 512 rfl rfl k
  have el : dot_S1024x512_S512x512_S1024x512_1_1_0_0_n_n.lhsIdx (ix2 r n) ((contrEquiv1 dot_S1024x512_S512x512_S1024x512_1_1_0_0_n_n 512 rfl rfl).symm k) = ix2 r k := funext fun a => Fin.ext (by
    match a with
    | ⟨0, _⟩ => exact lhs_row _ _
    | ⟨1, _⟩ => exact (lhs_col _ _).trans hk)
  have er : dot_S1024x512_S512x512_S1024x512_1_1_0_0_n_n.rhsIdx (ix2 r n) ((contrEquiv1 dot_S1024x512_S512x512_S1024x512_1_1_0_0_n_n 512 rfl rfl).symm k) = ix2 n k := funext fun a => Fin.ext (by
    match a with
    | ⟨0, _⟩ => exact rhs_row _ _
    | ⟨1, _⟩ => exact (rhs_col _ _).trans hk)
  rw [el, er, truncf_apply, truncf_apply, shapeCast_dropUnit_apply, shapeCast_dropUnit_apply]
  -- the dropped unit axis put back: (0, r, k) and (0, n, k)
  refine congrArg₂ (· * ·) (congrArg x0 (funext fun a => ?_)) (congrArg x1 (funext fun a => ?_))
  · match a with
    | ⟨0, _⟩ => rfl
    | ⟨1, _⟩ => rfl
    | ⟨2, _⟩ => rfl
  · match a with
    | ⟨0, _⟩ => rfl
    | ⟨1, _⟩ => rfl
    | ⟨2, _⟩ => rfl

/-- The stored block at (·, r, n): the product entry where row r is below the count (signed), zero elsewhere. -/
theorem stored_entry (w : BitVec 32) (x0 : Vec Ideal S1x1024x512 .f32) (x1 : Vec Ideal S1x512x512 .f32)
    (z : Fin 1) (r : Fin 1024) (n : Fin 512) :
    k0_pay1 (F := Ideal) w x0 x1 (ix3 z r n)
      = Scalar.select (IntOp.cmpi .slt (BitVec.ofNat 32 r.val) w) (∑ k : Fin 512, x0 (ix3 0 r k) * x1 (ix3 0 n k))
          (Ideal.ofBits .f32 0x00000000#32) := by
  unfold k0_pay1
  rw [shapeCast_addUnit_apply]
  rw [show (fun a : Fin 2 => (ix3 z r n) a.succ) = ix2 r n from funext fun a => by
    match a with
    | ⟨0, _⟩ => rfl
    | ⟨1, _⟩ => rfl]
  rw [select_apply, product_entry]
  show Scalar.select (IntOp.cmpi .slt (iota .tc S1024x512 32 [0] iota_S1024x512_d0_w32 (ix2 r n)) w) _ _ = _
  rw [iota_single_apply]
  rfl

end Cert.KernelIdeal.Block

end
-- ==== Proof.Spec.lean ====
/-
  The function both programs compute, as one function of the argument arrays.

  For 32 experts, a left array A (32 × 1024 × 512), a right array B (32 × 512 × 512) and a count per expert, the
  result at (e, r, n) is the inner product of row r of A[e] with row n of B[e] when r is below the expert's count
  (the row number and the count compared as signed 32-bit words), and zero otherwise:

      result[e, r, n] = Σₖ A[e, r, k] · B[e, n, k]   if r <ₛ count[e],      0   otherwise.

  No law of arithmetic is needed to join the two programs: both form this same sum of the same products, so the
  finiteness of the inputs is never used.
-/
import Idealize.ShloMosaic.PureOps.Ideal
import Idealize.ShloMosaic.Lib.ValueIdx

noncomputable section

open Idealize.ShloMosaic Idealize.ShloMosaic.ValueIdx

namespace Cert.MaskedProducts

abbrev Lhs : Shape := ⟨3, ![32, 1024, 512]⟩
abbrev Rhs : Shape := ⟨3, ![32, 512, 512]⟩
abbrev Counts : Shape := ⟨1, ![32]⟩

/-- The coordinates of an index of the result, as numbers below the literal extents. -/
abbrev expertOf (i : Lhs.Idx) : Fin 32 := ⟨(i 0).val, (i 0).isLt⟩
abbrev rowOf (i : Lhs.Idx) : Fin 1024 := ⟨(i 1).val, (i 1).isLt⟩
abbrev colOf (i : Lhs.Idx) : Fin 512 := ⟨(i 2).val, (i 2).isLt⟩

/-- Row r of A[e] against row n of B[e]. -/
def rowDot (A : FVec Ideal Lhs .f32) (B : FVec Ideal Rhs .f32) (e : Fin 32) (r : Fin 1024) (n : Fin 512) : EReal :=
  ∑ k : Fin 512, A (ix3 e r k) * B (ix3 e n k)

/-- The masked per-expert products. -/
def result (A : FVec Ideal Lhs .f32) (B : FVec Ideal Rhs .f32) (cnt : IVec Counts 32) : FVec Ideal Lhs .f32 :=
  fun i => Scalar.select (IntOp.cmpi .slt (BitVec.ofNat 32 (i 1).val) (cnt (ix1 (expertOf i))))
    (rowDot A B (expertOf i) (rowOf i) (colOf i)) (Ideal.ofBits .f32 0x00000000#32)

/-- The result at an index whose coordinates are (e, r, n). -/
theorem result_apply (A : FVec Ideal Lhs .f32) (B : FVec Ideal Rhs .f32) (cnt : IVec Counts 32) (i : Lhs.Idx)
    (e : Fin 32) (r : Fin 1024) (n : Fin 512) (he : (i 0).val = e.val) (hr : (i 1).val = r.val) (hn : (i 2).val = n.val) :
    result A B cnt i = Scalar.select (IntOp.cmpi .slt (BitVec.ofNat 32 r.val) (cnt (ix1 e))) (rowDot A B e r n)
      (Ideal.ofBits .f32 0x00000000#32) := by
  obtain rfl : expertOf i = e := Fin.ext he
  obtain rfl : rowOf i = r := Fin.ext hr
  obtain rfl : colOf i = n := Fin.ext hn
  rfl

end Cert.MaskedProducts

end
-- ==== Proof.KI.Whole.lean ====
/-
  The idealized kernel's result array after the run.

  The grid has one point per expert. Point e fetches A[e] and B[e] whole, reads count[e] from the prefetched
  table, and writes its block back to rows e of the result; no index map reads the table, so the side condition
  on the table's contents is empty. The block written at point e is the masked products of A[e] and B[e] — block e
  of ONE whole-array function of the arguments — and the 32 blocks tile the result array: the array ends holding
  that function.
-/
import proofs.«406847_j68152541052992_1_alg».proof.Proof.KI.Block
import proofs.«406847_j68152541052992_1_alg».proof.Proof.Spec

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Block Cert.MaskedProducts

variable (m : (ℓ : Loc nD τ sig) → Buf (Elt Ideal) ℓ) (ρ : Dev nD → PrngReg)

/-- No index map reads the prefetched table: nothing is asked of its contents. -/
theorem ok : Ok m := True.intro

/-- The printed index maps and the table offset, decided over the 32 grid points: point t fetches and writes
    block (t, 0, 0) of each array, and reads the table at offset t. -/
theorem maps_at : ∀ t : Fin grid0.N,
    k0_off1 (grid0.coords t) 0 = t.val
    ∧ cc0_transform_0 (grid0.coords t) 0 = t.val ∧ cc0_transform_0 (grid0.coords t) 1 = 0 ∧ cc0_transform_0 (grid0.coords t) 2 = 0
    ∧ cc0_transform_1 (grid0.coords t) 0 = t.val ∧ cc0_transform_1 (grid0.coords t) 1 = 0 ∧ cc0_transform_1 (grid0.coords t) 2 = 0
    ∧ cc0_transform_2 (grid0.coords t) 0 = t.val ∧ cc0_transform_2 (grid0.coords t) 1 = 0 ∧ cc0_transform_2 (grid0.coords t) 2 = 0 := by
  decide +kernel

/-- A grid point as an expert number. -/
abbrev expert (t : Fin grid0.N) : Fin 32 := t.cast N_0

/-- The arguments as the region finds them, at their literal types. -/
abbrev lhsArr (c : Dev nD) : FVec Ideal Lhs .f32 := V m c main_arg0
abbrev rhsArr (c : Dev nD) : FVec Ideal Rhs .f32 := V m c main_arg1
abbrev cntArr (c : Dev nD) : IVec Counts 32 := V m c main_arg2

/-- The two input blocks at a point, at their literal types. -/
abbrev lhsBlk (c : Dev nD) (t : Fin grid0.N) : Vec Ideal S1x1024x512 .f32 := iblk m (ok m) c 0 t
abbrev rhsBlk (c : Dev nD) (t : Fin grid0.N) : Vec Ideal S1x512x512 .f32 := iblk m (ok m) c 1 t

/-- The left block at point t is A[t]. -/
theorem lhsBlk_apply (c : Dev nD) (t : Fin grid0.N) (r : Fin 1024) (k : Fin 512) :
    lhsBlk m c t (ix3 0 r k) = lhsArr m c (ix3 (expert t) r k) := by
  obtain ⟨-, e0, e1, e2, -⟩ := maps_at t
  show V m c main_arg0 ((((cfgM m (ok m)).win 0).blk t).view.emb (ix3 0 r k)) = V m c main_arg0 (ix3 (expert t) r k)
  congr 1
  funext a
  apply Fin.ext
  match a with
  | ⟨0, _⟩ => show cc0_transform_0 (grid0.coords t) 0 * 1 + 1 * 0 = t.val; omega
  | ⟨1, _⟩ => show cc0_transform_0 (grid0.coords t) 1 * 1024 + 1 * r.val = r.val; omega
  | ⟨2, _⟩ => show cc0_transform_0 (grid0.coords t) 2 * 512 + 1 * k.val = k.val; omega

/-- The right block at point t is B[t]. -/
theorem rhsBlk_apply (c : Dev nD) (t : Fin grid0.N) (n : Fin 512) (k : Fin 512) :
    rhsBlk m c t (ix3 0 n k) = rhsArr m c (ix3 (expert t) n k) := by
  obtain ⟨-, -, -, -, e0, e1, e2, -⟩ := maps_at t
  show V m c main_arg1 ((((cfgM m (ok m)).win 1).blk t).view.emb (ix3 0 n k)) = V m c main_arg1 (ix3 (expert t) n k)
  congr 1
  funext a
  apply Fin.ext
  match a with
  | ⟨0, _⟩ => show cc0_transform_1 (grid0.coords t) 0 * 1 + 1 * 0 = t.val; omega
  | ⟨1, _⟩ => show cc0_transform_1 (grid0.coords t) 1 * 512 + 1 * n.val = n.val; omega
  | ⟨2, _⟩ => show cc0_transform_1 (grid0.coords t) 2 * 512 + 1 * k.val = k.val; omega

/-- The word read at point t is count[t]. -/
theorem countWord_at (c : Dev nD) (t : Fin grid0.N) :
    countWord (F := Ideal) c (grid0.coords t) (tbl m 0) = cntArr m c (ix1 (expert t)) := by
  obtain ⟨e0, -⟩ := maps_at t
  obtain rfl : c = 0 := Subsingleton.elim _ _
  unfold countWord
  show V m 0 main_arg2 _ = V m 0 main_arg2 _
  congr 1
  funext a
  apply Fin.ext
  match a with
  | ⟨0, _⟩ => show k0_off1 (grid0.coords t) 0 + 1 * 0 = t.val; omega

/-- The block stored at point t, entry (·, r, n): row r of A[t] against row n of B[t] where r is below count[t],
    zero elsewhere. -/
theorem stored_at_point (c : Dev nD) (t : Fin grid0.N) (z : Fin 1) (r : Fin 1024) (n : Fin 512) :
    k0_pay1 (F := Ideal) (countWord c (grid0.coords t) (tbl m 0)) (lhsBlk m c t) (rhsBlk m c t) (ix3 z r n)
      = Scalar.select (IntOp.cmpi .slt (BitVec.ofNat 32 r.val) (cntArr m c (ix1 (expert t))))
          (rowDot (lhsArr m c) (rhsArr m c) (expert t) r n) (Ideal.ofBits .f32 0x00000000#32) := by
  rw [stored_entry, countWord_at]
  unfold rowDot
  simp only [lhsBlk_apply, rhsBlk_apply]

/-- WHAT POINT t WRITES BACK is block t of the masked products of the arguments as the region finds them. -/
theorem flushed_eq (c : Dev nD) (t : Fin grid0.N) :
    (dats m (ok m) 0 c).flushed 2 t
      = (((cfgM m (ok m)).win 2).blk t).view.read (Elt Ideal) (result (lhsArr m c) (rhsArr m c) (cntArr m c)) := by
  obtain ⟨-, -, -, -, -, -, -, e0, e1, e2⟩ := maps_at t
  show ((cfgM m (ok m)).win 2).cut (grid0.coords t) ((dats m (ok m) 0 c).after 2 t) = _
  rw [after0_2]
  unfold outsAt0
  refine funext fun (j : S1x1024x512.Idx) => ?_
  -- the index inside the block, by coordinates
  have hj0 : (j 0).val < 1 := (j 0).isLt
  have hj1 : (j 1).val < 1024 := (j 1).isLt
  have hj2 : (j 2).val < 512 := (j 2).isLt
  have hx : ((cfgM m (ok m)).win 2).xinj (grid0.coords t) j = ix3 (⟨(j 0).val, hj0⟩ : Fin 1) (⟨(j 1).val, hj1⟩ : Fin 1024) (⟨(j 2).val, hj2⟩ : Fin 512) :=
    funext fun a => by
      match a with
      | ⟨0, _⟩ => rfl
      | ⟨1, _⟩ => rfl
      | ⟨2, _⟩ => rfl
  refine (congrFun (stored_eq (F := Ideal) c (grid0.coords t) (ms0_0 m (ok m) t) (hs0_0 m (ok m) t) (ms0_1 m (ok m) t) (hs0_1 m (ok m) t)
    (ms0_2 m (ok m) t) (hs0_2 m (ok m) t) (lhsBlk m c t) (rhsBlk m c t) (tbl m 0)) _).trans ?_
  refine (congrArg (k0_pay1 (F := Ideal) (countWord c (grid0.coords t) (tbl m 0)) (lhsBlk m c t) (rhsBlk m c t)) hx).trans ?_
  rw [stored_at_point]
  -- the same index inside the array: block t starts at row t of the leading axis
  exact (result_apply (lhsArr m c) (rhsArr m c) (cntArr m c) ((((cfgM m (ok m)).win 2).blk t).view.emb j)
    (expert t) ⟨(j 1).val, hj1⟩ ⟨(j 2).val, hj2⟩
    (by show cc0_transform_2 (grid0.coords t) 0 * 1 + 1 * (j 0).val = t.val; omega)
    (by show cc0_transform_2 (grid0.coords t) 1 * 1024 + 1 * (j 1).val = (j 1).val; omega)
    (by show cc0_transform_2 (grid0.coords t) 2 * 512 + 1 * (j 2).val = (j 2).val; omega)).symm

/-- An index of the result array lies in point t's block iff each coordinate is in the block's range on its axis. -/
theorem mem_blk (t : Fin grid0.N) (i : Lhs.Idx) :
    i ∈ (((cfgM m (ok m)).win 2).blk t).view.set
      ↔ ∀ a : Fin 3, cc0_transform_2 (grid0.coords t) a * S1x1024x512.size a ≤ (i a).val
          ∧ (i a).val < cc0_transform_2 (grid0.coords t) a * S1x1024x512.size a + S1x1024x512.size a := by
  refine Iff.trans (?_ : _ ↔ i ∈ (((cfgM m (ok m)).win 2).rect t).set) ?_
  · exact Finset.ext_iff.mp (View.set_slice_whole main_v0 (((cfgM m (ok m)).win 2).rect t)) i
  · exact Rect.mem_set_unit

/-- Every index (e, r, n) of the result array is in the block of point e, which is written back. -/
theorem covered (i : Lhs.Idx) :
    ∃ t : Fin (cfgM m (ok m)).N, ((cfgM m (ok m)).win 2).flush t = true ∧ i ∈ (((cfgM m (ok m)).win 2).blk t).view.set := by
  have h0 : (i 0).val < 32 := (i 0).isLt
  have h1 : (i 1).val < 1024 := (i 1).isLt
  have h2 : (i 2).val < 512 := (i 2).isLt
  have hN : grid0.N = 32 := N_0
  obtain ⟨t, ht⟩ : ∃ t : Fin grid0.N, t.val = (i 0).val := ⟨⟨(i 0).val, by omega⟩, rfl⟩
  obtain ⟨-, -, -, -, -, -, -, e0, e1, e2⟩ := maps_at t
  refine ⟨t, flush0_2 (adm m (ok m)) t, ?_⟩
  rw [mem_blk]
  intro a
  match a with
  | ⟨0, _⟩ =>
    show cc0_transform_2 (grid0.coords t) 0 * 1 ≤ (i 0).val ∧ (i 0).val < cc0_transform_2 (grid0.coords t) 0 * 1 + 1
    omega
  | ⟨1, _⟩ =>
    show cc0_transform_2 (grid0.coords t) 1 * 1024 ≤ (i 1).val ∧ (i 1).val < cc0_transform_2 (grid0.coords t) 1 * 1024 + 1024
    omega
  | ⟨2, _⟩ =>
    show cc0_transform_2 (grid0.coords t) 2 * 512 ≤ (i 2).val ∧ (i 2).val < cc0_transform_2 (grid0.coords t) 2 * 512 + 512
    omega

/-- THE RESULT ARRAY after the run: the masked products of the arguments. -/
theorem final (c : Dev nD) :
    (dats m (ok m) 0 c).arrAt 2 (cfgM m (ok m)).N = result (lhsArr m c) (rhsArr m c) (cntArr m c) :=
  (dats m (ok m) 0 c).arrAt_eq_of_cover 2 _ (fun t _ => flushed_eq m c t) (covered m)

/-- The run, read: every weakly fair execution of the idealized kernel ends with the result array at the masked
    products of the launch contents of the arguments, and the arguments unchanged. -/
theorem run : θ_run defs (onTc (τ := τ) (main (F := Ideal))) ⟨m, fun _ => 0, ρ⟩ fun r => ∀ c : Dev nD,
      r.2.mem ((c.tc : Thread nD τ).loc main_v0)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 2).trans (final m c),
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c))),
      ((h c).2 main_arg2 (by decide : main_arg2 ∈ Pipeline.restRefs sig spec0)).trans (V_main_arg2 m c)⟩)
    (run_main m ρ (ok m))

end Cert.KernelIdeal.Whole

end
-- ==== Proof.Ref.Same.lean ====
/-
  The reference computes the masked products.

  The host program forms the batched product of A and B over the expert axis (contracting the last axis of
  both), compares an iota over the 1024 rows with the counts broadcast along the rows (signed), broadcasts that
  mask over the 512 columns and selects the product or zero. Read one operation at a time at an index (e, r, n),
  that is  Σₖ A[e, r, k] · B[e, n, k]  where  r <ₛ count[e],  and zero elsewhere: the specification, term for term.
-/
import proofs.«406847_j68152541052992_1_alg».proof.Proof.Gen.ReferenceIdeal.Read
import proofs.«406847_j68152541052992_1_alg».proof.Proof.Spec

noncomputable section

open Idealize.ShloMosaic Idealize.ShloMosaic.ValueIdx

namespace Cert.ReferenceIdeal.Same

open Cert.ReferenceIdeal Cert.ReferenceIdeal.Read Cert.MaskedProducts

/-- The reference's result stage is the masked products of its arguments, index by index. -/
theorem stage_eq (A : FVec Ideal Lhs .f32) (B : FVec Ideal Rhs .f32) (cnt : IVec Counts 32) :
    val_main_v8 (F := Ideal) A B cnt = result A B cnt := by
  funext i
  -- where each layout operation reads its operand: the count at the expert, the iota at the row
  have ec : idx_main_v3 (idx_main_v5 (idx_main_v7 (idx_main_call0_v0 i))) = ix1 (expertOf i) :=
    funext fun a => by
      match a with
      | ⟨0, _⟩ => rfl
  have el : ∀ k : Fin 512, lidx_main_v0 i k = ix3 (expertOf i) (rowOf i) k := fun k => funext fun a => by
    match a with
    | ⟨0, _⟩ => rfl
    | ⟨1, _⟩ => rfl
    | ⟨2, _⟩ => rfl
  have er : ∀ k : Fin 512, ridx_main_v0 i k = ix3 (expertOf i) (colOf i) k := fun k => funext fun a => by
    match a with
    | ⟨0, _⟩ => rfl
    | ⟨1, _⟩ => rfl
    | ⟨2, _⟩ => rfl
  rw [val_main_v8_apply, val_main_call0_v0_apply, val_main_v7_apply, val_main_v6_apply, val_main_v4_apply,
    val_main_v2_apply, val_main_v1_apply, val_main_v5_apply, val_main_v3_apply, val_main_v0_apply,
    val_main_call0_v1_apply, val_main_cst_apply]
  simp only [ec, el, er]
  rfl

end Cert.ReferenceIdeal.Same

end
-- ==== Proof.lean ====
/-
  Masked per-expert products: the kernel against its reference, over the extended reals.

  For 32 experts, A of shape 32 × 1024 × 512, B of shape 32 × 512 × 512 and a count per expert, both programs
  compute
      result[e, r, n] = Σₖ A[e, r, k] · B[e, n, k]   if r <ₛ count[e] (signed 32-bit words),   0 otherwise.

  The kernel runs one grid point per expert: it fetches A[e] and B[e] whole, reads count[e] from a prefetched
  table that no index map consults (so nothing is asked of the table's contents and both frames hold for every
  memory), multiplies with the product unit into a zero accumulator, and stores the masked block; the 32 blocks
  tile the result. The reference forms the batched product on the host and selects under the broadcast mask.
  On the extended reals a change of float format is the identity and both sides form the same sum of the same
  products, so no law beyond the definitions joins them and the finiteness of the inputs is not used. The ideal
  pass rewrote nothing, so the kernel's idealization is its own text.
-/
import proofs.«406847_j68152541052992_1_alg».proof.Defs
import proofs.«406847_j68152541052992_1_alg».proof.Proof.Gen.Kernel
import proofs.«406847_j68152541052992_1_alg».proof.Proof.Gen.Kernel.Skeleton
import proofs.«406847_j68152541052992_1_alg».proof.Proof.Gen.Kernel.Launch
import proofs.«406847_j68152541052992_1_alg».proof.Proof.Gen.Kernel.Points
import proofs.«406847_j68152541052992_1_alg».proof.Proof.Gen.Kernel.Frame
import proofs.«406847_j68152541052992_1_alg».proof.Proof.Gen.KernelIdeal
import proofs.«406847_j68152541052992_1_alg».proof.Proof.Gen.KernelIdeal.Skeleton
import proofs.«406847_j68152541052992_1_alg».proof.Proof.Gen.KernelIdeal.Launch
import proofs.«406847_j68152541052992_1_alg».proof.Proof.Gen.KernelIdeal.Points
import proofs.«406847_j68152541052992_1_alg».proof.Proof.Gen.KernelIdeal.Frame
import proofs.«406847_j68152541052992_1_alg».proof.Proof.Gen.ReferenceIdeal
import proofs.«406847_j68152541052992_1_alg».proof.Proof.Gen.Pre_finite_inputs
import proofs.«406847_j68152541052992_1_alg».proof.Proof.Gen.ReferenceIdeal.Run
import proofs.«406847_j68152541052992_1_alg».proof.Proof.Gen.ReferenceIdeal.Read
import proofs.«406847_j68152541052992_1_alg».proof.Proof.KI.Whole
import proofs.«406847_j68152541052992_1_alg».proof.Proof.Ref.Same
import Idealize.ShloMosaic.Adequacy
import Idealize.ShloMosaic.Init

noncomputable section

namespace Cert.Proof

open Idealize.ShloMosaic Idealize.SL.Sem

/-- The word-level kernel runs and leaves its arguments unchanged: the table's side condition is empty. -/
theorem frame_kernel [Cert.Kernel.Facts] [Cert.Pre_finite_inputs.Facts] : Cert.frame_Kernel :=
  fun m ρ _ => Cert.Kernel.Gen.frame m ρ True.intro

/-- The same for the kernel read on the extended reals. -/
theorem frame_kernelIdeal [Cert.KernelIdeal.Facts] [Cert.Pre_finite_inputs.Facts] : Cert.frame_KernelIdeal :=
  fun m ρ _ => Cert.KernelIdeal.Gen.frame m ρ True.intro

/-- The reference is a straight line of host operations: its run, with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on the three arguments, both programs end with the result array at the masked
    products of those arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.MaskedProducts.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.Same.stage_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
